-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x17x3 : Shape := ⟨3, ![131072, 17, 3]⟩
abbrev S_ : Shape := ⟨0, ![]⟩

class Facts : Prop where
  bcast_S_S131072x17x3 : S_.BroadcastsInDim S131072x17x3 (![] : Fin 0 → Fin S131072x17x3.rank)
  reducesTo_S131072x17x3_S_d0_1_2 : S131072x17x3.ReducesTo [0, 1, 2] S_
  h_S_ : 0 < S_.numel

variable [Facts]

def fn {F : FTy → Type} [FloatOps F] (main_arg0 : FVec F S131072x17x3 .f32) : IVec S_ 1 :=
  let main_v0 : FVec F S131072x17x3 .f32 := Host.absf main_arg0
  let main_cst : FVec F S_ .f32 := constant S_ .f32 0x7F800000#32
  let main_v1 : FVec F S131072x17x3 .f32 := broadcastInDim S131072x17x3 ![] bcast_S_S131072x17x3 main_cst
  let main_v2 : IVec S131072x17x3 1 := cmpf .olt main_v0 main_v1
  let main_c : IVec S_ 1 := constantI S_ 1 1#1
  let main_v3 : IVec S_ 1 := (fun x v => Host.reduce IntOp.andi x v reducesTo_S131072x17x3_S_d0_1_2 h_S_) main_v2 main_c
  main_v3
-- ==== Kernel.lean ====
abbrev S131072x17x3 : Shape := ⟨3, ![131072, 17, 3]⟩
abbrev S131072x51 : Shape := ⟨2, ![131072, 51]⟩
abbrev S1x1 : Shape := ⟨2, ![1, 1]⟩
abbrev S2048x51 : Shape := ⟨2, ![2048, 51]⟩
abbrev S2048x1 : Shape := ⟨2, ![2048, 1]⟩
abbrev S2048x3 : Shape := ⟨2, ![2048, 3]⟩
abbrev S2048 : Shape := ⟨1, ![2048]⟩
abbrev S1 : Shape := ⟨1, ![1]⟩
abbrev S_ : Shape := ⟨0, ![]⟩

abbrev nBuf : Space → Nat
  | .hbm => 6
  | .vmem => 4
  | .smem => 0
  | _ => 0

abbrev bufTy : (tb : Table) → Fin (tcTables nBuf tb) → BufTy
  | .hbm, ⟨0, _⟩ => ⟨S131072x17x3, .f32⟩
  | .hbm, ⟨1, _⟩ => ⟨S131072x51, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S2048x51, .f32⟩
  | .local _ .vmem, ⟨1, _⟩ => ⟨S2048x51, .f32⟩
  | .local _ .vmem, ⟨2, _⟩ => ⟨S1x1, .f32⟩
  | .local _ .vmem, ⟨3, _⟩ => ⟨S1x1, .f32⟩
  | _, _ => ⟨S131072x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v2750 : BitVec 1 := Scalar.cmpi .eq arg0 c63_i32
  let v2751 : BitVec 32 := Scalar.extui v2750
  let c0_i32_823 : BitVec 32 := 0#32
  let v2752 : BitVec 1 := Scalar.cmpi .ne v2751 c0_i32_823
  v2752

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x51 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S131072x17x3_S131072x51 : S131072x17x3.ShapeCasts S131072x51
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x51_S2048x51_0_0 : ∀ a, (![0, 0] : Fin 2 → Nat) a + S2048x51.size a ≤ S2048x51.size a
  h_S2048x51 : 0 < S2048x51.numel
  shapeCasts_S2048x51_S2048x51 : S2048x51.ShapeCasts S2048x51
  slices_S2048x51_o0_0_S2048x3 : S2048x51.Slices ![0, 0] S2048x3
  slices_S2048x51_o0_3_S2048x3 : S2048x51.Slices ![0, 3] S2048x3
  reduces_S2048x3_S2048 : S2048x3.Reduces [1] S2048
  shapeCasts_S2048_S2048x1 : S2048.ShapeCasts S2048x1
  slices_S2048x51_o0_6_S2048x3 : S2048x51.Slices ![0, 6] S2048x3
  slices_S2048x51_o0_9_S2048x3 : S2048x51.Slices ![0, 9] S2048x3
  slices_S2048x51_o0_12_S2048x3 : S2048x51.Slices ![0, 12] S2048x3
  slices_S2048x51_o0_15_S2048x3 : S2048x51.Slices ![0, 15] S2048x3
  slices_S2048x51_o0_18_S2048x3 : S2048x51.Slices ![0, 18] S2048x3
  slices_S2048x51_o0_21_S2048x3 : S2048x51.Slices ![0, 21] S2048x3
  slices_S2048x51_o0_24_S2048x3 : S2048x51.Slices ![0, 24] S2048x3
  slices_S2048x51_o0_27_S2048x3 : S2048x51.Slices ![0, 27] S2048x3
  slices_S2048x51_o0_30_S2048x3 : S2048x51.Slices ![0, 30] S2048x3
  slices_S2048x51_o0_33_S2048x3 : S2048x51.Slices ![0, 33] S2048x3
  slices_S2048x51_o0_36_S2048x3 : S2048x51.Slices ![0, 36] S2048x3
  slices_S2048x51_o0_39_S2048x3 : S2048x51.Slices ![0, 39] S2048x3
  slices_S2048x51_o0_42_S2048x3 : S2048x51.Slices ![0, 42] S2048x3
  slices_S2048x51_o0_45_S2048x3 : S2048x51.Slices ![0, 45] S2048x3
  slices_S2048x51_o0_48_S2048x3 : S2048x51.Slices ![0, 48] S2048x3
  reduces_S2048x1_S1 : S2048x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x51.size a ≤ S131072x51.size a
  hwx0_0 : ∀ i : grid0.Coords, EltTy.bits .f32 = 32 ∨ (Rect.block (s := S131072x51) S2048x51.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S2048x51.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S131072x17x3 : Shape := ⟨3, ![131072, 17, 3]⟩
abbrev S131072x17x1x3 : Shape := ⟨4, ![131072, 17, 1, 3]⟩
abbrev S131072x1x17x3 : Shape := ⟨4, ![131072, 1, 17, 3]⟩
abbrev S131072x17x17x3 : Shape := ⟨4, ![131072, 17, 17, 3]⟩
abbrev S_ : Shape := ⟨0, ![]⟩
abbrev S131072x17x17 : Shape := ⟨3, ![131072, 17, 17]⟩
abbrev S17x17 : Shape := ⟨2, ![17, 17]⟩
abbrev S1x17x17 : Shape := ⟨3, ![1, 17, 17]⟩
abbrev S131072 : Shape := ⟨1, ![131072]⟩

abbrev nBuf : Space → Nat
  | .hbm => 34
  | .vmem => 0
  | .smem => 0
  | _ => 0

abbrev bufTy : (tb : Table) → Fin (tcTables nBuf tb) → BufTy
  | .hbm, ⟨0, _⟩ => ⟨S131072x17x3, .f32⟩
  | .hbm, ⟨1, _⟩ => ⟨S131072x17x1x3, .f32⟩
  | .hbm, ⟨2, _⟩ => ⟨S131072x1x17x3, .f32⟩
  | .hbm, ⟨3, _⟩ => ⟨S131072x17x17x3, .f32⟩
  | .hbm, ⟨4, _⟩ => ⟨S131072x17x17x3, .f32⟩
  | .hbm, ⟨5, _⟩ => ⟨S131072x17x17x3, .f32⟩
  | .hbm, ⟨6, _⟩ => ⟨S131072x17x17x3, .f32⟩
  | .hbm, ⟨7, _⟩ => ⟨S_, .f32⟩
  | .hbm, ⟨8, _⟩ => ⟨S131072x17x17, .f32⟩
  | .hbm, ⟨9, _⟩ => ⟨S_, .f32⟩
  | .hbm, ⟨10, _⟩ => ⟨S131072x17x17, .f32⟩
  | .hbm, ⟨11, _⟩ => ⟨S131072x17x17, .f32⟩
  | .hbm, ⟨12, _⟩ => ⟨S_, .f32⟩
  | .hbm, ⟨13, _⟩ => ⟨S131072x17x17, .f32⟩
  | .hbm, ⟨14, _⟩ => ⟨S131072x17x17, .f32⟩
  | .hbm, ⟨15, _⟩ => ⟨S17x17, .i32⟩
  | .hbm, ⟨16, _⟩ => ⟨S17x17, .i32⟩
  | .hbm, ⟨17, _⟩ => ⟨S_, .i32⟩
  | .hbm, ⟨18, _⟩ => ⟨S17x17, .i32⟩
  | .hbm, ⟨19, _⟩ => ⟨S17x17, .i32⟩
  | .hbm, ⟨20, _⟩ => ⟨S17x17, .i1⟩
  | .hbm, ⟨21, _⟩ => ⟨S17x17, .i1⟩
  | .hbm, ⟨22, _⟩ => ⟨S1x17x17, .i1⟩
  | .hbm, ⟨23, _⟩ => ⟨S_, .f32⟩
  | .hbm, ⟨24, _⟩ => ⟨S_, .f32⟩
  | .hbm, ⟨25, _⟩ => ⟨S131072x17x17, .i1⟩
  | .hbm, ⟨26, _⟩ => ⟨S131072x17x17, .f32⟩
  | .hbm, ⟨27, _⟩ => ⟨S131072x17x17, .f32⟩
  | .hbm, ⟨28, _⟩ => ⟨S_, .f32⟩
  | .hbm, ⟨29, _⟩ => ⟨S131072, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S131072x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S131072x17x3_S131072x17x1x3_0_1_3 : S131072x17x3.BroadcastsInDim S131072x17x1x3 (![0, 1, 3] : Fin 3 → Fin S131072x17x1x3.rank)
  bcast_S131072x17x3_S131072x1x17x3_0_2_3 : S131072x17x3.BroadcastsInDim S131072x1x17x3 (![0, 2, 3] : Fin 3 → Fin S131072x1x17x3.rank)
  bcast_S131072x17x1x3_S131072x17x17x3_0_1_2_3 : S131072x17x1x3.BroadcastsInDim S131072x17x17x3 (![0, 1, 2, 3] : Fin 4 → Fin S131072x17x17x3.rank)
  bcast_S131072x1x17x3_S131072x17x17x3_0_1_2_3 : S131072x1x17x3.BroadcastsInDim S131072x17x17x3 (![0, 1, 2, 3] : Fin 4 → Fin S131072x17x17x3.rank)
  reducesTo_S131072x17x17x3_S131072x17x17_d3 : S131072x17x17x3.ReducesTo [3] S131072x17x17
  h_S_ : 0 < S_.numel
  bcast_S_S131072x17x17 : S_.BroadcastsInDim S131072x17x17 (![] : Fin 0 → Fin S131072x17x17.rank)
  bcast_S_S17x17 : S_.BroadcastsInDim S17x17 (![] : Fin 0 → Fin S17x17.rank)
  bcast_S17x17_S1x17x17_1_2 : S17x17.BroadcastsInDim S1x17x17 (![1, 2] : Fin 2 → Fin S1x17x17.rank)
  bcast_S1x17x17_S131072x17x17_0_1_2 : S1x17x17.BroadcastsInDim S131072x17x17 (![0, 1, 2] : Fin 3 → Fin S131072x17x17.rank)
  reducesTo_S131072x17x17_S131072_d1_2 : S131072x17x17.ReducesTo [1, 2] S131072
  reducesTo_S131072_S_d0 : S131072.ReducesTo [0] S_

variable [Facts₀]

class Facts : Prop extends Facts₀ where

variable [Facts]
-- ==== Proof.Block.lean ====
/-
  One grid point's work on its block of 2048 rows, written as a fold instead of 272 unrolled pairs.

  A row of the block holds 17 joints side by side, joint `i` in columns `3i, 3i+1, 3i+2`. For an ordered pair
  `(i, j)` the body forms, for all rows at once, `max 0 (thr - Σ_d (x_i d - x_j d)²)` as a column of 2048 entries
  (`hinge`), and adds these columns up pair by pair, `i` ascending, within it `j` ascending, skipping `j = i`,
  starting from the zero column (`acc`). The column is then summed over the rows to one number (`blockSum`),
  which the body adds to the running total it keeps between grid points.
  Generic in the float instance: the same text is read at words and at extended reals.
-/
import proofs.«120140_j39513699123324_1_alg».proof.KernelIdeal

noncomputable section

namespace Cert.KernelIdeal.Block

open Idealize.ShloMosaic Cert.KernelIdeal

variable {F : FTy → Type} [FloatOps F]

/-- Joint `i`'s three columns lie inside the 51 columns of a row. -/
theorem slices_joint (i : Fin 17) : S2048x51.Slices ![0, 3 * i.val] S2048x3 :=
  ⟨rfl, fun a => by
    match a with
    | ⟨0, _⟩ => exact (by decide : 0 + 2048 ≤ 2048)
    | ⟨1, _⟩ => show 3 * i.val + 3 ≤ 51; omega⟩

/-- Coordinate `d` of joint `i` sits in column `3i + d` of a row. -/
def col (i : Fin 17) (d : Fin 3) : Fin 51 := ⟨3 * i.val + d.val, by have := i.isLt; have := d.isLt; omega⟩

/-- Joint `i` of every row: columns `3i .. 3i+2` of the block. -/
def joint (x : FVec F S2048x51 .f32) (i : Fin 17) : FVec F S2048x3 .f32 :=
  extractStridedSlice S2048x3 ![0, 3 * i.val] x (slices_joint i)

/-- The hinge of the ordered pair `(i, j)`, for every row: `max 0 (thr - Σ_d (x_i d - x_j d)²)`. -/
def hinge (x : FVec F S2048x51 .f32) (i j : Fin 17) : FVec F S2048x1 .f32 :=
  maximumf (broadcast S2048x1 (Scalar.ofBits .f32 0x00000000#32))
    (subf (broadcast S2048x1 (Scalar.ofBits .f32 0x3C23D70A#32))
      (shapeCast S2048x1
        (multiReduction .add [1] S2048 (mulf (subf (joint x i) (joint x j)) (subf (joint x i) (joint x j)))
          0x00000000#32 (by decide) (.inl rfl) rfl)
        (by decide)))

/-- The pairs `(i, 0), …, (i, n-1)` without `(i, i)` added, in that order, onto `a`. -/
def rowAcc (x : FVec F S2048x51 .f32) (i : Fin 17) : (n : ℕ) → n ≤ 17 → FVec F S2048x1 .f32 → FVec F S2048x1 .f32
  | 0, _, a => a
  | n + 1, h, a =>
    if i.val = n then rowAcc x i n (Nat.le_of_succ_le h) a
    else addf (rowAcc x i n (Nat.le_of_succ_le h) a) (hinge x i ⟨n, h⟩)

/-- All pairs of the first `n` values of `i`, added in the body's order onto the zero column. -/
def acc (x : FVec F S2048x51 .f32) : (n : ℕ) → n ≤ 17 → FVec F S2048x1 .f32
  | 0, _ => broadcast S2048x1 (Scalar.ofBits .f32 0x00000000#32)
  | n + 1, h => rowAcc x ⟨n, h⟩ 17 (Nat.le_refl 17) (acc x n (Nat.le_of_succ_le h))

/-- What one grid point adds to the running total: the hinge column summed over the block's rows. -/
def blockSum (x : FVec F S2048x51 .f32) : FVec F S1x1 .f32 :=
  shapeCast S1x1
    (multiReduction .add [0] S1 (acc x 17 (Nat.le_refl 17)) 0x00000000#32 (by decide) (.inl rfl) rfl)
    (by decide)

end Cert.KernelIdeal.Block

end
-- ==== Proof.Pieces.lean ====
/-
  What each case of the body leaves behind, as values.

  The body keeps a running total in a one-entry scratch. At the first grid point it stores zero there, reads it back
  and adds the block's sum; at every later point it adds the block's sum to what the point before left; at the last
  point it also copies the total into the output's buffer. The 272 unrolled pair computations of the printed body are,
  term for term, the fold `Block.acc` — by unfolding both sides.
-/
import proofs.«120140_j39513699123324_1_alg».proof.Proof.Gen.KernelIdeal.Frame
import proofs.«120140_j39513699123324_1_alg».proof.Proof.Block
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen Cert.KernelIdeal.Block

variable {F : FTy → Type} [FloatOps F]

theorem hz : (![0, 0] : Fin 2 → Nat) = fun _ => 0 := funext fun a => by fin_cases a <;> rfl

/-- The zero the first point stores into the scratch. -/
abbrev zero11 : FVec F S1x1 .f32 := broadcast S1x1 (Scalar.ofBits .f32 0x00000000#32)

/-- A later point (not the last): the scratch, holding `xs`, ends at `xs + blockSum x`. -/
theorem sout_B (c : Dev nD) (i : grid0.Coords) (a1 : Memref sig .tc .vmem S2048x51 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S2048x51 .f32) (xs : Vec F S1x1 .f32) :
    sout0_B_0 c i a1 h1 a2 h2 a3 h3 hc0 hc1 x xs = addf xs (blockSum x) := by
  have e : sout0_B_0 c i a1 h1 a2 h2 a3 h3 hc0 hc1 x xs
      = shapeCast S1x1 (addf xs (blockSum (shapeCast S2048x51 x (by decide)))) (by decide) := by
    unfold sout0_B_0
    rw [View.read_writes_eq_canon _ _ _ (scover0_B_0 c i a1 h1 a2 h2 a3 h3 hc0 hc1 x xs)]
    unfold kernelRun0_B
    dsimp only
    sl_unfold_words
    rw [View.canon_unit_zero hz]
    simp only [View.readAt_eq_ld, h1.read_unread, h3.read_unread, View.ld_unit_zero (S := S2048x51) hz,
      View.ld_unit_zero (S := S1x1) hz]
    rfl
  rw [e, shapeCast_self, shapeCast_self]

/-- The last point: the scratch ends at `xs + blockSum x` as at any later point, -/
theorem sout_C (c : Dev nD) (i : grid0.Coords) (a1 : Memref sig .tc .vmem S2048x51 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S2048x51 .f32) (xs : Vec F S1x1 .f32) :
    sout0_C_0 c i a1 h1 a2 h2 a3 h3 hc0 hc1 x xs = addf xs (blockSum x) := by
  have e : sout0_C_0 c i a1 h1 a2 h2 a3 h3 hc0 hc1 x xs
      = shapeCast S1x1 (addf xs (blockSum (shapeCast S2048x51 x (by decide)))) (by decide) := by
    unfold sout0_C_0
    rw [View.read_writes_eq_canon _ _ _ (scover0_C_0 c i a1 h1 a2 h2 a3 h3 hc0 hc1 x xs)]
    unfold kernelRun0_C
    dsimp only
    sl_unfold_words
    rw [View.canon_unit_zero hz]
    simp only [View.readAt_eq_ld, h1.read_unread, h3.read_unread, View.ld_unit_zero (S := S2048x51) hz,
      View.ld_unit_zero (S := S1x1) hz]
    rfl
  rw [e, shapeCast_self, shapeCast_self]

/-- and the output's buffer receives that same total, read back from the scratch. -/
theorem out_C (c : Dev nD) (i : grid0.Coords) (a1 : Memref sig .tc .vmem S2048x51 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S2048x51 .f32) (xs : Vec F S1x1 .f32) :
    out0_C_1 c i a1 h1 a2 h2 a3 h3 hc0 hc1 x xs = addf xs (blockSum x) := by
  have e : out0_C_1 c i a1 h1 a2 h2 a3 h3 hc0 hc1 x xs
      = shapeCast S1x1 (addf xs (blockSum (shapeCast S2048x51 x (by decide)))) (by decide) := by
    unfold out0_C_1
    rw [View.read_writes_eq_canon _ _ _ (cover0_C_1 c i a1 h1 a2 h2 a3 h3 hc0 hc1 x xs)]
    unfold kernelRun0_C
    dsimp only
    sl_unfold_words
    rw [View.canon_unit_zero hz]
    simp only [View.readCov_unit_zero (S := S1x1) _ hz, View.readAt_eq_ld, h1.read_unread, h3.read_unread,
      View.ld_unit_zero (S := S2048x51) hz, View.ld_unit_zero (S := S1x1) hz]
    rfl
  rw [e, shapeCast_self, shapeCast_self]

/-- The first point: the scratch is reset to zero, read back, and ends at `0 + blockSum x`. -/
theorem sout_A (c : Dev nD) (i : grid0.Coords) (a1 : Memref sig .tc .vmem S2048x51 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S2048x51 .f32) :
    sout0_A_0 c i a1 h1 a2 h2 a3 h3 hc0 hc1 x = addf zero11 (blockSum x) := by
  have e : sout0_A_0 c i a1 h1 a2 h2 a3 h3 hc0 hc1 x
      = shapeCast S1x1 (addf (shapeCast S1x1 zero11 (by decide)) (blockSum (shapeCast S2048x51 x (by decide)))) (by decide) := by
    unfold sout0_A_0
    rw [View.read_writes_eq_canon _ _ _ (scover0_A_0 c i a1 h1 a2 h2 a3 h3 hc0 hc1 x)]
    unfold kernelRun0_A
    dsimp only
    sl_unfold_words
    rw [View.canon_cons_unit_zero (S := S1x1) hz, View.readCov_unit_zero (S := S1x1) _ hz]
    simp only [View.readAt_eq_ld, h1.read_unread, View.ld_unit_zero (S := S2048x51) hz,
      View.ld_unit_zero (S := S1x1) hz]
    rfl
  rw [e, shapeCast_self, shapeCast_self, shapeCast_self]

end Cert.KernelIdeal.Pieces

end
-- ==== Proof.Accum.lean ====
/-
  The running total, point by point.

  After grid point `n` the scratch holds `((0 + s₀) + s₁) + … + sₙ`, where `sₜ` is the block sum of the block staged
  at point `t`: by induction on the point over the three cases' values. At the last point the output's buffer
  receives that total.
-/
import proofs.«120140_j39513699123324_1_alg».proof.Proof.Pieces
import Idealize.ShloMosaic.Lib.ValueIdx
import Mathlib.Algebra.BigOperators.Fin

noncomputable section

namespace Cert.KernelIdeal.Accum

open Idealize.ShloMosaic Idealize.ShloMosaic.TcCoe Idealize.SL.Sem
open Cert.KernelIdeal Cert.KernelIdeal.Gen Cert.KernelIdeal.Block Cert.KernelIdeal.Pieces

variable {F : FTy → Type} [FloatOps F]
variable (m : (ℓ : Loc nD τ sig) → Buf (Elt F) ℓ)

/-- The block staged at point `t`, at its literal type. -/
abbrev xblk (c : Dev nD) (t : Fin cfg0.N) : Vec F S2048x51 .f32 := iblk m c 0 t

/-- The running total after point `n`: zero plus the block sums of points `0 … n`, added in point order. -/
def total (c : Dev nD) : (n : ℕ) → n < cfg0.N → FVec F S1x1 .f32
  | 0, h => addf zero11 (blockSum (xblk m c ⟨0, h⟩))
  | n + 1, h => addf (total c n (Nat.lt_of_succ_lt h)) (blockSum (xblk m c ⟨n + 1, h⟩))

/-- The scratch after point `n` holds the running total. -/
theorem scratch_eq (c : Dev nD) : ∀ (n : ℕ) (h : n < cfg0.N), (outsAt0 m c n h).2 = total m c n h
  | 0, h => by
    have h1 : ¬(⟨0, h⟩ : Fin cfg0.N).val % 64 = 63 := by dsimp only; omega
    rw [outsAt0_A m c ⟨0, h⟩ rfl h1]
    dsimp only
    exact sout_A (F := F) c (grid0.coords ⟨0, h⟩) (ms0_0 ⟨0, h⟩) (hs0_0 ⟨0, h⟩) (ms0_1 ⟨0, h⟩) (hs0_1 ⟨0, h⟩) scM0_0
      (Memref.isWhole_whole _) ((hcond0_0 ⟨0, h⟩).mpr rfl) (fun hh => h1 ((hcond0_1 ⟨0, h⟩).mp hh)) (iblk m c 0 ⟨0, h⟩)
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      refine (sout_C (F := F) c (grid0.coords ⟨n + 1, h⟩) (ms0_0 ⟨n + 1, h⟩) (hs0_0 ⟨n + 1, h⟩) (ms0_1 ⟨n + 1, h⟩)
        (hs0_1 ⟨n + 1, h⟩) scM0_0 (Memref.isWhole_whole _) (fun hh => h0 ((hcond0_0 ⟨n + 1, h⟩).mp hh))
        ((hcond0_1 ⟨n + 1, h⟩).mpr h1) (iblk m c 0 ⟨n + 1, h⟩)
        (outsAt0 m c (n + 1 - 1) (Nat.lt_of_le_of_lt (Nat.sub_le _ _) h)).2).trans ?_
      show addf (outsAt0 m c n _).2 _ = addf (total m c n _) _
      rw [scratch_eq c n]
    · rw [outsAt0_B m c ⟨n + 1, h⟩ h0 h1]
      dsimp only
      refine (sout_B (F := F) c (grid0.coords ⟨n + 1, h⟩) (ms0_0 ⟨n + 1, h⟩) (hs0_0 ⟨n + 1, h⟩) (ms0_1 ⟨n + 1, h⟩)
        (hs0_1 ⟨n + 1, h⟩) scM0_0 (Memref.isWhole_whole _) (fun hh => h0 ((hcond0_0 ⟨n + 1, h⟩).mp hh))
        (fun hh => h1 ((hcond0_1 ⟨n + 1, h⟩).mp hh)) (iblk m c 0 ⟨n + 1, h⟩)
        (outsAt0 m c (n + 1 - 1) (Nat.lt_of_le_of_lt (Nat.sub_le _ _) h)).2).trans ?_
      show addf (outsAt0 m c n _).2 _ = addf (total m c n _) _
      rw [scratch_eq c n]

/-- The grid's last point. -/
theorem lt_last : 63 < cfg0.N := lt_of_lt_of_eq (by decide : 63 < 64) (show cfg0.N = 64 from N_0).symm

/-- At the last point the output's buffer receives the running total. -/
theorem out_last (c : Dev nD) : (outsAt0 m c 63 lt_last).1 = total m c 63 lt_last := by
  have h0 : ¬(⟨63, lt_last⟩ : Fin cfg0.N).val % 64 = 0 := by decide
  have h1 : (⟨63, lt_last⟩ : Fin cfg0.N).val % 64 = 63 := by decide
  rw [outsAt0_C m c ⟨63, lt_last⟩ h0 h1]
  dsimp only
  refine (out_C (F := F) c (grid0.coords ⟨63, lt_last⟩) (ms0_0 ⟨63, lt_last⟩) (hs0_0 ⟨63, lt_last⟩) (ms0_1 ⟨63, lt_last⟩)
    (hs0_1 ⟨63, lt_last⟩) scM0_0 (Memref.isWhole_whole _) (fun hh => h0 ((hcond0_0 ⟨63, lt_last⟩).mp hh))
    ((hcond0_1 ⟨63, lt_last⟩).mpr h1) (iblk m c 0 ⟨63, lt_last⟩)
    (outsAt0 m c (63 - 1) (Nat.lt_of_le_of_lt (Nat.sub_le _ _) lt_last)).2).trans ?_
  show addf (outsAt0 m c 62 _).2 _ = addf (total m c 62 _) _
  rw [scratch_eq m c 62]

end Cert.KernelIdeal.Accum

end
-- ==== Proof.Final.lean ====
/-
  From the last point's buffer to @main's result.

  Only the last grid point writes the output's one block back, and that block is the whole [1, 1] array: so after the
  region the array holds the running total. @main then reads it as a scalar and divides by the batch size.
-/
import proofs.«120140_j39513699123324_1_alg».proof.Proof.Accum
import Idealize.ShloMosaic.Lib.Pipeline.Value
import Idealize.ShloMosaic.Lib.StableHlo.Run

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Block Cert.KernelIdeal.Pieces Cert.KernelIdeal.Accum

variable {F : FTy → Type} [FloatOps F]
variable (m : (ℓ : Loc nD τ sig) → Buf (Elt F) ℓ) (ρ : Dev nD → PrngReg)

/-- The output array after the region: the running total after the last point. -/
abbrev result (c : Dev nD) : Buf (Elt F) ((c : Thread nD τ).loc main_v1) := total m c 63 lt_last

/-- The output window's index map is `(0, 0)` at every point: its one block is the whole array
    (checked at each of the 64 points). -/
private theorem index1 : ∀ t : Fin cfg0.N, win0_1.index t 0 = 0 ∧ win0_1.index t 1 = 0 :=
  (by decide +kernel : ∀ t : Fin grid0.N, win0_1.index t 0 = 0 ∧ win0_1.index t 1 = 0)

/-- The one write-back, at the last point, writes the running total: the block at offsets `(0, 0)` of the [1, 1]
    array, read back, is the array. -/
private theorem flushed_eq (c : Dev nD) (t : Fin cfg0.N) (hf : (cfg0.win 1).flush t = true) :
    (dats m 0 c).flushed 1 t = ((cfg0.win 1).blk t).view.read (Elt F) (result m c) := by
  have hN : cfg0.N = 64 := N_0
  have h63 : t.val = 63 := by have := (flush0_1 t).mp hf; have := t.isLt; omega
  obtain rfl : t = ⟨63, lt_last⟩ := Fin.ext h63
  show (cfg0.win 1).cut (grid0.coords ⟨63, lt_last⟩) ((dats m 0 c).after 1 ⟨63, lt_last⟩) = _
  rw [after0_1]
  show (cfg0.win 1).cut (grid0.coords ⟨63, lt_last⟩) (outsAt0 m c 63 lt_last).1 = _
  rw [out_last]
  have hz' : (fun a => win0_1.index ⟨63, lt_last⟩ a * main_v1.ty.shape.size a) = fun _ => 0 := funext fun a => by
    match a with
    | ⟨0, _⟩ => show win0_1.index ⟨63, lt_last⟩ 0 * 1 = 0; rw [(index1 _).1]
    | ⟨1, _⟩ => show win0_1.index ⟨63, lt_last⟩ 1 * 1 = 0; rw [(index1 _).2]
  exact (Memref.read_access_unit_zero (Elt F) main_v1 hz' (fun a => by rw [congrFun hz' a]; simp) (result m c)).symm

/-- The output array ends holding the running total: the last point's write-back covers it. -/
theorem final_o (c : Dev nD) : (dats m 0 c).arrAt 1 cfg0.N = result m c :=
  (dats m 0 c).arrAt_eq_of_cover 1 (result m c) (flushed_eq m c) fun i =>
    -- the last point's block covers the one entry of the array
    ⟨⟨63, lt_last⟩, (flush0_1 ⟨63, lt_last⟩).mpr rfl, by
      show i ∈ ((View.whole main_v1).slice (win0_1.rect ⟨63, lt_last⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index ⟨63, lt_last⟩ 0 * 1 ≤ (i 0 : Nat) ∧ (i 0 : Nat) < win0_1.index ⟨63, lt_last⟩ 0 * 1 + 1
        rw [(index1 _).1]; omega
      | ⟨1, _⟩ =>
        show win0_1.index ⟨63, lt_last⟩ 1 * 1 ≤ (i 1 : Nat) ∧ (i 1 : Nat) < win0_1.index ⟨63, lt_last⟩ 1 * 1 + 1
        rw [(index1 _).2]; omega⟩

/-- @main's result: the total read as a scalar, divided by the batch size. -/
abbrev answer (c : Dev nD) : (⟨S_, .f32⟩ : BufTy).Contents (Elt F) :=
  Host.divf (shapeCast S_ (result m c) shapeCasts_S1x1_S_) (constant S_ .f32 0x48000000#32)

/-- The lines after the region: the output array, which ends at the running total, is read as a scalar and divided
    by the constant `131072`. -/
private theorem tail_v3 (c : Dev nD) :
    Pipeline.afterTail₀ cfgs (dats m) 0 (V0 m) [hostOps1] c main_v3 = answer m c := by
  unfold Pipeline.afterTail₀
  show StableHlo.after hostOps1 _ (Proc.devRef .tc main_v3) = _
  after_results
  -- the region's arrays at their final contents, read at the output array
  have hw : Pipeline.withArrays (cfgs 0).spec c (V0 m c) (fun w => (dats m 0 c).arrAt w (cfgs 0).N)
      (Proc.tc.devRef main_v1) = result m c :=
    (Pipeline.withArrays_arr spec0 launch0.win.arr_inj c _ _ 1).trans (final_o m c)
  rw [hw]
  rfl

/-- The run, read: @main's result is the total as a scalar divided by the batch size; the argument is unchanged. -/
theorem run : θ_run defs (onTc (τ := τ) (main (F := F))) ⟨m, fun _ => 0, ρ⟩ fun r => ∀ c : Dev nD,
      r.2.mem ((c : Thread nD τ).loc main_v3) = answer m c
      ∧ r.2.mem ((c : Thread nD τ).loc main_arg0) = m ((c : Thread nD τ).loc main_arg0) := by
  -- both are buffers no window stages: the frame run leaves them as the lines after the region do
  refine (θ_run defs _ _).mono (fun _ h c => ⟨?_, ?_⟩) (run_main m ρ)
  · exact ((h c).2 main_v3 (Pipeline.mem_restRefs_of main_v3 (by decide) (by decide))).trans (tail_v3 m c)
  · exact ((h c).2 main_arg0 (Pipeline.mem_restRefs_of main_arg0 (by decide) (by decide))).trans
      (W_main_arg0 m (dats m) c)

end Cert.KernelIdeal.Final

end
-- ==== Proof.Spec.lean ====
/-
  The quantity both programs compute, as a function on the extended reals.

  A batch row holds 17 joints with 3 coordinates each. For an ordered pair of joints the hinge is
  `max 0 (c - ‖u - v‖²)` with `c` the f32 word `0x3C23D70A` read exactly; a row's loss is the sum of the hinge
  over all ordered pairs of DISTINCT joints (the diagonal contributes zero), and the result is the sum of the rows'
  losses over the batch divided by the batch size. Nothing here mentions a program.
-/
import Idealize.ShloMosaic.PureOps.Ideal
import Idealize.ShloMosaic.PureOps.Ideal.Laws
import Idealize.ShloMosaic.Lib.ValueIdx

noncomputable section

namespace Cert.Separation

open Idealize.ShloMosaic

/-- The squared threshold: the f32 word both programs spell, read exactly. -/
abbrev thr : EReal := Ideal.ofBits .f32 0x3C23D70A#32

/-- The hinge of one ordered pair of joints `u`, `v`: `max 0 (thr - Σ_d (u d - v d)²)`. -/
def pairHinge (u v : Fin 3 → EReal) : EReal :=
  max 0 (thr - ∑ d : Fin 3, (u d - v d) * (u d - v d))

/-- A row's loss: the hinge summed over the ordered pairs of distinct joints. -/
def rowLoss (y : Fin 17 → Fin 3 → EReal) : EReal :=
  ∑ i : Fin 17, ∑ j : Fin 17, if i = j then 0 else pairHinge (y i) (y j)

end Cert.Separation

end
-- ==== Proof.BlockValue.lean ====
/-
  One grid point's contribution, read on the extended reals: the fold over the 272 ordered pairs and the sum over
  the block's 2048 rows is `Σ_r rowLoss (row r)`.
-/
import proofs.«120140_j39513699123324_1_alg».proof.Proof.Block
import proofs.«120140_j39513699123324_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Idealize.ShloMosaic Idealize.ShloMosaic.ValueIdx Cert.KernelIdeal

/-- Joint `i` of row `r`, coordinate `d`, is the block's entry in column `3i + d` of that row. -/
private theorem joint_apply (x : FVec Ideal S2048x51 .f32) (i : Fin 17) (r : Fin 2048) (d : Fin 3) :
    joint x i (ix2 r d) = x (ix2 r (col i d)) := by
  unfold joint
  refine extractStridedSlice_apply _ x _ _ _ fun a => ?_
  match a with
  | ⟨0, _⟩ => show r.val = 0 + r.val; omega
  | ⟨1, _⟩ => rfl

/-- The sum over a row's three lanes, read at row `r`. -/
private theorem laneSum_apply (v : FVec Ideal S2048x3 .f32) (h : S2048x3.Reduces [1] S2048) (hφ : FKind.Formats .f32)
    (hacc : (0x00000000#32 : BitVec 32) = 0x00000000#32) (r : Fin 2048) :
    multiReduction .add [1] S2048 v 0x00000000#32 h hφ hacc (ix1 r) = ∑ d : Fin 3, v (ix2 r d) := by
  refine (Ideal.multiReduction_add_single v 0x00000000#32 h hφ hacc (ix1 r)).trans ?_
  show ∑ d : Fin 3, v (h.lift (ix1 r) d) = _
  refine Finset.sum_congr rfl fun d _ => congrArg v ?_
  funext a
  match a with
  | ⟨0, _⟩ => exact Fin.ext rfl
  | ⟨1, _⟩ => exact Fin.ext rfl

/-- The sum of a column over the block's 2048 rows, read at its one index. -/
private theorem rowSum_apply (v : FVec Ideal S2048x1 .f32) (h : S2048x1.Reduces [0] S1) (hφ : FKind.Formats .f32)
    (hacc : (0x00000000#32 : BitVec 32) = 0x00000000#32) (u : Fin 1) :
    multiReduction .add [0] S1 v 0x00000000#32 h hφ hacc (ix1 u) = ∑ r : Fin 2048, v (ix2 r 0) := by
  refine (Ideal.multiReduction_add_single v 0x00000000#32 h hφ hacc (ix1 u)).trans ?_
  show ∑ r : Fin 2048, v (h.lift (ix1 u) r) = _
  refine Finset.sum_congr rfl fun r _ => congrArg v ?_
  funext a
  match a with
  | ⟨0, _⟩ => exact Fin.ext rfl
  | ⟨1, _⟩ => exact Fin.ext (by have := u.isLt; show u.val = 0; omega)

/-- A column of 2048 entries made from a vector of 2048 reads, at row `r`, the vector's entry `r`. -/
private theorem column_apply {α : Type} (v : S2048.Idx → α) (h : S2048.ShapeCasts S2048x1) (r : Fin 2048) :
    shapeCast S2048x1 v h (ix2 r 0) = v (ix1 r) :=
  shapeCast_apply v h _ _ (by
    rw [Shape.rowMajor_val_two, Shape.rowMajor_val_one]
    show r.val = r.val * 1 + 0
    omega)

/-- The hinge column of the pair `(i, j)` at row `r` is the pair hinge of that row's joints `i` and `j`. -/
private theorem hinge_apply (x : FVec Ideal S2048x51 .f32) (i j : Fin 17) (r : Fin 2048) :
    hinge x i j (ix2 r 0)
      = Cert.Separation.pairHinge (fun d => x (ix2 r (col i d))) (fun d => x (ix2 r (col j d))) := by
  unfold hinge Cert.Separation.pairHinge
  rw [maximumf_apply, subf_apply, broadcast_apply, broadcast_apply, column_apply, laneSum_apply]
  simp only [mulf_apply, subf_apply, joint_apply]
  show max (Ideal.ofBits .f32 0x00000000#32) (Ideal.ofBits .f32 0x3C23D70A#32 - _) = _
  rw [Ideal.ofBits_zero_f32]

/-- The zero column reads `0` everywhere. -/
private theorem zeroCol_apply (q : S2048x1.Idx) :
    (broadcast S2048x1 (Scalar.ofBits (F := Ideal) .f32 0x00000000#32) : FVec Ideal S2048x1 .f32) q = 0 := by
  rw [broadcast_apply]
  exact Ideal.ofBits_zero_f32

/-- Adding the pairs `(i, 0), …, (i, n-1)` without `(i, i)` onto `a`: at each entry, `a` plus the sum of those hinges. -/
private theorem rowAcc_apply (x : FVec Ideal S2048x51 .f32) (i : Fin 17) (n : ℕ) (h : n ≤ 17)
    (a : FVec Ideal S2048x1 .f32) (q : S2048x1.Idx) :
    rowAcc x i n h a q
      = a q + ∑ j : Fin n, (if i.val = j.val then 0 else hinge x i ⟨j.val, lt_of_lt_of_le j.isLt h⟩ q) := by
  induction n with
  | zero =>
    show a q = a q + ∑ j : Fin 0, _
    rw [Finset.univ_eq_empty, Finset.sum_empty, add_zero]
  | succ n ih =>
    have hs : ∑ j : Fin (n + 1), (if i.val = j.val then 0 else hinge x i ⟨j.val, lt_of_lt_of_le j.isLt h⟩ q)
        = ∑ j : Fin n, (if i.val = j.val then 0
            else hinge x i ⟨j.val, lt_of_lt_of_le j.isLt (Nat.le_of_succ_le h)⟩ q)
          + (if i.val = n then 0 else hinge x i ⟨n, h⟩ q) := by
      rw [Fin.sum_univ_castSucc]; rfl
    have e : rowAcc x i (n + 1) h a
        = if i.val = n then rowAcc x i n (Nat.le_of_succ_le h) a
          else addf (rowAcc x i n (Nat.le_of_succ_le h) a) (hinge x i ⟨n, h⟩) := rfl
    rw [hs, ← add_assoc, ← ih (Nat.le_of_succ_le h), e]
    by_cases hin : i.val = n
    · rw [if_pos hin, if_pos hin, add_zero]
    · rw [if_neg hin, if_neg hin, addf_apply]

/-- All pairs of the first `n` values of `i`, at an entry: the double sum of the hinges off the diagonal. -/
private theorem acc_apply (x : FVec Ideal S2048x51 .f32) (n : ℕ) (h : n ≤ 17) (q : S2048x1.Idx) :
    acc x n h q
      = ∑ i : Fin n, ∑ j : Fin 17,
          (if i.val = j.val then 0 else hinge x ⟨i.val, lt_of_lt_of_le i.isLt h⟩ j q) := by
  induction n with
  | zero =>
    show (broadcast S2048x1 (Scalar.ofBits (F := Ideal) .f32 0x00000000#32) : FVec Ideal S2048x1 .f32) q
      = ∑ i : Fin 0, _
    rw [zeroCol_apply, Finset.univ_eq_empty, Finset.sum_empty]
  | succ n ih =>
    have hs : ∑ i : Fin (n + 1), ∑ j : Fin 17,
          (if i.val = j.val then 0 else hinge x ⟨i.val, lt_of_lt_of_le i.isLt h⟩ j q)
        = ∑ i : Fin n, ∑ j : Fin 17,
            (if i.val = j.val then 0 else hinge x ⟨i.val, lt_of_lt_of_le i.isLt (Nat.le_of_succ_le h)⟩ j q)
          + ∑ j : Fin 17, (if n = j.val then 0 else hinge x ⟨n, h⟩ j q) := by
      rw [Fin.sum_univ_castSucc]; rfl
    have e : acc x (n + 1) h = rowAcc x ⟨n, h⟩ 17 (Nat.le_refl 17) (acc x n (Nat.le_of_succ_le h)) := rfl
    rw [hs, ← ih (Nat.le_of_succ_le h), e, rowAcc_apply]

/-- At the extended reals the block's sum is the sum over its rows of the row loss of that row's 17 joints. -/
theorem blockSum_apply (x : FVec Ideal S2048x51 .f32) (p : S1x1.Idx) :
    blockSum x p = ∑ r : Fin 2048, Cert.Separation.rowLoss (fun i d => x (ix2 r (col i d))) := by
  rw [eq_ix2 p]
  unfold blockSum
  refine (shapeCast_a_1a_apply _ _ (p 0) (p 1)).trans ?_
  refine (rowSum_apply _ _ _ _ (p 1)).trans ?_
  refine Finset.sum_congr rfl fun r _ => ?_
  rw [acc_apply]
  unfold Cert.Separation.rowLoss
  refine Finset.sum_congr rfl fun i _ => Finset.sum_congr rfl fun j _ => ?_
  by_cases hij : i = j
  · rw [if_pos hij, if_pos (congrArg Fin.val hij)]
  · rw [if_neg hij, if_neg (fun hv => hij (Fin.ext hv))]
    exact hinge_apply x i j r

end Cert.KernelIdeal.Block

end
-- ==== Proof.Rows.lean ====
/-
  Where a row of a grid point's block comes from, and the regrouping of the batch into blocks.

  The kernel's operand is the argument reshaped from [131072, 17, 3] to [131072, 51]; grid point `t` stages rows
  `2048 t .. 2048 t + 2047` of it. So entry `(r, 3i + d)` of the block at `t` is coordinate `d` of joint `i` of batch
  row `2048 t + r`. Summing over the 64 points and the 2048 rows of each is summing over the 131072 batch rows.
-/
import proofs.«120140_j39513699123324_1_alg».proof.Proof.Gen.KernelIdeal.Frame
import proofs.«120140_j39513699123324_1_alg».proof.Proof.Block
import Idealize.ShloMosaic.Lib.ValueIdx
import Idealize.ShloMosaic.Lib.Pipeline.Value
import Idealize.ShloMosaic.Lib.StableHlo.Run
import Mathlib.Algebra.BigOperators.Group.Finset.Defs
import Mathlib.Data.Fintype.BigOperators
import Mathlib.Data.Fintype.EquivFin

noncomputable section

namespace Cert.KernelIdeal.Rows

open Idealize.ShloMosaic Idealize.ShloMosaic.TcCoe Idealize.ShloMosaic.ValueIdx Idealize.SL.Sem
open Cert.KernelIdeal Cert.KernelIdeal.Gen Cert.KernelIdeal.Block

variable {F : FTy → Type} [FloatOps F]
variable (m : (ℓ : Loc nD τ sig) → Buf (Elt F) ℓ)

/-- Batch row `2048 t + r`, for a grid point `t` and a row `r` of its block. -/
def batchRow (t : Fin cfg0.N) (r : Fin 2048) : Fin 131072 :=
  ⟨2048 * t.val + r.val, by have := lt_of_lt_of_eq t.isLt (show cfg0.N = 64 from N_0); have := r.isLt; omega⟩

/-- The array the window stages is the argument reshaped: the one host operation before the region writes it. -/
private theorem V_main_v0 (c : Dev nD) :
    (V m c main_v0 : S131072x51.Idx → Elt F .f32)
      = shapeCast S131072x51 (m ((c : Thread nD τ).loc main_arg0)) shapeCasts_S131072x17x3_S131072x51 := by
  show StableHlo.after hostOps0 (fun b => m (c, b)) (Proc.devRef .tc main_v0) = _
  after_results
  rfl

/-- The reshape read at an index: entry `(b, 3i + d)` of the [131072, 51] array is entry `(b, i, d)` of the
    [131072, 17, 3] one — both sit at row-major position `51 b + 3 i + d = (17 b + i) · 3 + d`. -/
private theorem reshape_at {α : Type} (x : S131072x17x3.Idx → α) (b : Fin 131072) (i : Fin 17) (d : Fin 3)
    (k : S131072x51.Idx) (h0 : (k 0).val = b.val) (h1 : (k 1).val = 3 * i.val + d.val) :
    shapeCast S131072x51 x shapeCasts_S131072x17x3_S131072x51 k = x (ix3 b i d) := by
  refine shapeCast_apply x _ k (ix3 b i d) ?_
  rw [Shape.rowMajor_val_three, Shape.rowMajor_val_two]
  show (b.val * 17 + i.val) * 3 + d.val = (k 0).val * 51 + (k 1).val
  rw [h0, h1]
  omega

/-- The window's index map at point `t` is `(t, 0)`: block `t` along the rows, the one block along the columns
    (checked at each of the 64 points). -/
private theorem index0 : ∀ t : Fin cfg0.N, win0_0.index t 0 = t.val ∧ win0_0.index t 1 = 0 :=
  (by decide +kernel : ∀ t : Fin grid0.N, win0_0.index t 0 = t.val ∧ win0_0.index t 1 = 0)

/-- The block staged at point `t`, at row `r` and column `3i + d`, is the argument at batch row `2048 t + r`,
    joint `i`, coordinate `d`. -/
theorem iblk_apply (c : Dev nD) (t : Fin cfg0.N) (r : Fin 2048) (i : Fin 17) (d : Fin 3) :
    (iblk m c 0 t : Vec F S2048x51 .f32) (ix2 r (col i d))
      = m ((c : Thread nD τ).loc main_arg0) (ix3 (batchRow t r) i d) := by
  unfold iblk
  rw [View.read_apply]
  show V m c main_v0 _ = _
  rw [V_main_v0]
  refine reshape_at _ _ _ _ _ ?_ ?_
  -- rows: block index times 2048, plus the row inside the block
  · show win0_0.index t 0 * 2048 + 1 * r.val = 2048 * t.val + r.val
    rw [(index0 t).1]; omega
  -- columns: the block spans all 51 columns, so its column index is 0
  · show win0_0.index t 1 * 51 + 1 * (3 * i.val + d.val) = 3 * i.val + d.val
    rw [(index0 t).2]; omega

/-- Summing over the points and the rows of each block is summing over the batch. -/
theorem sum_blocks {M : Type*} [AddCommMonoid M] (f : Fin 131072 → M) :
    ∑ t : Fin cfg0.N, ∑ r : Fin 2048, f (batchRow t r) = ∑ b : Fin 131072, f b := by
  have hN : cfg0.N = 64 := N_0
  -- the double sum is one sum over pairs (point, row) …
  rw [← Fintype.sum_prod_type' (fun (t : Fin cfg0.N) (r : Fin 2048) => f (batchRow t r))]
  -- … and (t, r) ↦ 2048 t + r is a bijection from the pairs onto the batch rows
  refine Fintype.sum_bijective (fun p : Fin cfg0.N × Fin 2048 => batchRow p.1 p.2) ?_ _ _ (fun _ => rfl)
  rw [Fintype.bijective_iff_injective_and_card]
  constructor
  -- injective: quotient and remainder of division by 2048 are unique
  · rintro ⟨t, r⟩ ⟨t', r'⟩ h
    have h' : 2048 * t.val + r.val = 2048 * t'.val + r'.val := congrArg Fin.val h
    have := r.isLt
    have := r'.isLt
    have ht : t.val = t'.val := by omega
    have hr : r.val = r'.val := by omega
    exact Prod.ext (Fin.ext ht) (Fin.ext hr)
  -- and both sides have 64 · 2048 = 131072 elements
  · rw [Fintype.card_prod, Fintype.card_fin, Fintype.card_fin, Fintype.card_fin, hN]

end Cert.KernelIdeal.Rows

end
-- ==== Proof.Total.lean ====
/-
  The kernel's total, read on the extended reals.

  The chain `((0 + s₀) + s₁) + … + s₆₃` is the sum of the 64 block sums; a block sum is the sum of the row losses of the
  block's 2048 rows; the rows of block `t` are batch rows `2048 t … 2048 t + 2047`. So the total is the sum of the row
  losses over the whole batch.
-/
import proofs.«120140_j39513699123324_1_alg».proof.Proof.Accum
import proofs.«120140_j39513699123324_1_alg».proof.Proof.BlockValue
import proofs.«120140_j39513699123324_1_alg».proof.Proof.Rows
import Idealize.ShloMosaic.PureOps.Ideal.Laws
import Idealize.ShloMosaic.Lib.ValueIdx
import Mathlib.Algebra.BigOperators.Fin

noncomputable section

namespace Cert.KernelIdeal.Total

open Idealize.ShloMosaic Idealize.ShloMosaic.TcCoe Idealize.ShloMosaic.ValueIdx Idealize.SL.Sem
open Cert.KernelIdeal Cert.KernelIdeal.Gen Cert.KernelIdeal.Block Cert.KernelIdeal.Pieces Cert.KernelIdeal.Accum
open Cert.KernelIdeal.Rows

variable (m : (ℓ : Loc nD τ sig) → Buf (Elt Ideal) ℓ)

/-- Point `t`'s block sum at the one index, or `0` past the grid: the summand of the chain. -/
def term (c : Dev nD) (p : S1x1.Idx) (t : ℕ) : EReal :=
  if ht : t < cfg0.N then blockSum (xblk m c ⟨t, ht⟩) p else 0

/-- The running total after point `n` is the sum of the block sums of points `0 … n`. -/
theorem total_apply (c : Dev nD) (p : S1x1.Idx) : ∀ (n : ℕ) (h : n < cfg0.N),
    total m c n h p = ∑ t ∈ Finset.range (n + 1), term m c p t
  | 0, h => by
    show addf zero11 (blockSum (xblk m c ⟨0, h⟩)) p = _
    rw [Finset.sum_range_one, addf_apply]
    show Ideal.ofBits .f32 0x00000000#32 + _ = _
    rw [Ideal.ofBits_zero_f32, zero_add]
    unfold term
    rw [dif_pos h]
  | n + 1, h => by
    show addf (total m c n (Nat.lt_of_succ_lt h)) (blockSum (xblk m c ⟨n + 1, h⟩)) p = _
    rw [Finset.sum_range_succ, addf_apply, total_apply c p n (Nat.lt_of_succ_lt h)]
    congr 1
    unfold term
    rw [dif_pos h]

/-- The total after the last point: the sum over the grid of the block sums. -/
theorem total_last_apply (c : Dev nD) (p : S1x1.Idx) :
    total m c 63 lt_last p = ∑ t : Fin cfg0.N, blockSum (xblk m c t) p := by
  rw [total_apply m c p 63 lt_last]
  have hN : cfg0.N = 64 := N_0
  rw [show (63 + 1 : ℕ) = cfg0.N from hN.symm, ← Fin.sum_univ_eq_sum_range (fun t => term m c p t) cfg0.N]
  refine Finset.sum_congr rfl fun t _ => ?_
  unfold term
  rw [dif_pos t.isLt]

/-- The total is the sum over the batch of each row's loss. -/
theorem total_value (c : Dev nD) (p : S1x1.Idx) :
    total m c 63 lt_last p
      = ∑ b : Fin 131072, Cert.Separation.rowLoss (fun i d => m ((c : Thread nD τ).loc main_arg0) (ix3 b i d)) := by
  rw [total_last_apply]
  rw [← sum_blocks (fun b => Cert.Separation.rowLoss (fun i d => m ((c : Thread nD τ).loc main_arg0) (ix3 b i d)))]
  refine Finset.sum_congr rfl fun t _ => ?_
  rw [blockSum_apply]
  refine Finset.sum_congr rfl fun r _ => ?_
  congr 1
  funext i d
  exact iblk_apply m c t r i d

end Cert.KernelIdeal.Total

end
-- ==== Proof.RefRows.lean ====
/-
  The reference, read on the extended reals up to its last sum: the masked pairwise hinge summed over the joint pairs
  and over the batch is `Σ_b rowLoss (row b)`.
-/
import proofs.«120140_j39513699123324_1_alg».proof.Proof.Gen.ReferenceIdeal.Read
import proofs.«120140_j39513699123324_1_alg».proof.Proof.Spec
import Idealize.ShloMosaic.PureOps.Ideal.Laws
import Idealize.ShloMosaic.Lib.ValueIdx
import Idealize.ShloMosaic.Lib.ValueIdxRank1
import Idealize.ShloMosaic.Lib.Pipeline.Value

noncomputable section

namespace Cert.ReferenceIdeal.RefValue

open Idealize.ShloMosaic Idealize.ShloMosaic.ValueIdx Cert.ReferenceIdeal Cert.ReferenceIdeal.Read

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dropping the two joint axes of a [batch, joint, joint] index leaves the batch coordinate. -/
private theorem drop_ix3 (h : S131072x17x17.ReducesTo [1, 2] S131072) (a : Fin 131072) (p q : Fin 17) :
    h.drop (ix3 a p q) = ix1 a := by
  funext d
  match d with
  | ⟨0, _⟩ => exact Fin.ext rfl

/-- The sum over the two joint axes, read at a batch row: the initial value plus the double sum over the joints. -/
private theorem reduce_rows (h : S131072x17x17.ReducesTo [1, 2] S131072) (f : S131072x17x17.Idx → EReal) (init : EReal)
    (b : Fin 131072) :
    Ideal.hostReduceAdd h f init (ix1 b) = init + ∑ p : Fin 17, ∑ q : Fin 17, f (ix3 b p q) := by
  unfold Ideal.hostReduceAdd
  refine congrArg (init + ·) ?_
  rw [Finset.sum_filter, sum_idx3]
  have hinj : ∀ a : Fin 131072, (ix1 a = ix1 b) ↔ a = b :=
    fun a => ⟨fun e => congrFun e 0, fun e => e ▸ rfl⟩
  simp only [drop_ix3, hinj]
  rw [Finset.sum_eq_single b]
  · simp only [if_true]
  · intro a _ hab
    simp only [if_neg hab, Finset.sum_const_zero]
  · intro hb
    exact absurd (Finset.mem_univ b) hb

/-- The mask the two iotas build: set exactly off the diagonal. -/
private theorem mask_apply (p q : Fin 17) :
    ~~~(IntOp.cmpi .eq (IntOp.addi (BitVec.ofNat 32 p.val) 0#32) (BitVec.ofNat 32 q.val)) = if p = q then 0#1 else 1#1 := by
  revert p q
  decide

/-- The mask read at a batch row and a pair of joints: clear on the diagonal, set off it. -/
private theorem mask_read (b : Fin 131072) (p q : Fin 17) :
    val_main_call0_v1 (F := Ideal) (ix3 b p q) = if p = q then 0#1 else 1#1 := by
  rw [val_main_call0_v1_apply, val_main_v17_apply, val_main_v16_apply, val_main_v15_apply, val_main_v14_apply,
    val_main_v11_apply, val_main_v12_apply, val_main_v13_apply, val_main_c_apply]
  exact mask_apply p q

/-- The hinge before masking, read at a batch row and a pair of joints: the pair's hinge of the two joints' coordinates. -/
private theorem hinge_read (X : (⟨S131072x17x3, .f32⟩ : BufTy).Contents (Elt Ideal)) (b : Fin 131072) (p q : Fin 17) :
    val_main_v10 (F := Ideal) X (ix3 b p q)
      = Cert.Separation.pairHinge (fun d => X (ix3 b p d)) (fun d => X (ix3 b q d)) := by
  have e1 : ∀ k : Fin 3, idx_main_v0 (idx_main_v2 (idx_main_v6 (ix3 b p q) k)) = ix3 b p k := fun k =>
    funext fun a => by match a with | ⟨0, _⟩ => rfl | ⟨1, _⟩ => rfl | ⟨2, _⟩ => rfl
  have e2 : ∀ k : Fin 3, idx_main_v1 (idx_main_v3 (idx_main_v6 (ix3 b p q) k)) = ix3 b q k := fun k =>
    funext fun a => by match a with | ⟨0, _⟩ => rfl | ⟨1, _⟩ => rfl | ⟨2, _⟩ => rfl
  rw [val_main_v10_apply, val_main_v9_apply, val_main_cst_1_apply, val_main_v8_apply, val_main_v7_apply,
    val_main_cst_0_apply, val_main_v6_apply, val_main_cst_apply]
  simp only [val_main_v5_apply, val_main_v4_apply, val_main_v2_apply, val_main_v3_apply, val_main_v0_apply,
    val_main_v1_apply, e1, e2, Ideal.maximumf_def, Ideal.subf_def, Ideal.mulf_def, Ideal.ofBits_def,
    Ideal.ofBits_zero_f32, zero_add]
  rfl

/-- The reference's total before the final division: the sum over the batch of each row's loss. -/
theorem total_eq (X : (⟨S131072x17x3, .f32⟩ : BufTy).Contents (Elt Ideal)) (i : S_.Idx) :
    val_main_v20 (F := Ideal) X i = ∑ b : Fin 131072, Cert.Separation.rowLoss (fun p d => X (ix3 b p d)) := by
  rw [val_main_v20_apply, val_main_cst_4_apply, Ideal.ofBits_def, Ideal.ofBits_zero_f32, zero_add, sum_idx1]
  refine Finset.sum_congr rfl fun b _ => ?_
  unfold val_main_v19
  simp only [Host.reduceAdd, Ideal.hostReduceAdd_def]
  rw [reduce_rows, val_main_cst_3_apply, Ideal.ofBits_def, Ideal.ofBits_zero_f32, zero_add]
  unfold Cert.Separation.rowLoss
  refine Finset.sum_congr rfl fun p _ => Finset.sum_congr rfl fun q _ => ?_
  rw [val_main_v18_apply, mask_read, hinge_read, val_main_call0_v2_apply, val_main_call0_v0_apply,
    val_main_cst_2_apply, Ideal.ofBits_def, Ideal.ofBits_zero_f32]
  by_cases hpq : p = q
  · rw [if_pos hpq, if_pos hpq, select_zero]
  · rw [if_neg hpq, if_neg hpq, select_one]

end Cert.ReferenceIdeal.RefValue

end
-- ==== Proof.lean ====
/- The separation loss: the kernel against its reference, over the extended reals.

   Both programs compute, for a batch of 131072 rows of 17 joints with 3 coordinates,
     (Σ_b Σ_{i ≠ j} max 0 (thr - Σ_d (x[b,i,d] - x[b,j,d])²)) / 131072,
   with `thr` and the divisor the same f32 words on both sides.
   The kernel walks the batch in 64 blocks of 2048 rows, unrolls the 272 ordered pairs of distinct joints, adds their
   hinge columns up in a fixed order, sums the column over the block's rows and keeps a running total across the grid
   (`Block`, `Pieces`, `Accum`, `Final`); read exactly, that chain is the sum of the row losses over the batch
   (`BlockValue`, `Rows`, `Total`). The reference forms all 17 × 17 pairs, masks the diagonal to zero and sums over
   pairs and batch (`RefRows`). Sums of extended reals regroup freely and zero is neutral, so the two totals are one
   number and the quotients agree; no finiteness of the inputs is used. The frames are the generated ones; the ideal
   pass rewrote nothing, so `preserves` is trivial. -/
import proofs.«120140_j39513699123324_1_alg».proof.Defs
import proofs.«120140_j39513699123324_1_alg».proof.Proof.Gen.Kernel
import proofs.«120140_j39513699123324_1_alg».proof.Proof.Gen.Kernel.Skeleton
import proofs.«120140_j39513699123324_1_alg».proof.Proof.Gen.Kernel.Launch
import proofs.«120140_j39513699123324_1_alg».proof.Proof.Gen.Kernel.Points
import proofs.«120140_j39513699123324_1_alg».proof.Proof.Gen.Kernel.Frame
import proofs.«120140_j39513699123324_1_alg».proof.Proof.Gen.KernelIdeal
import proofs.«120140_j39513699123324_1_alg».proof.Proof.Gen.KernelIdeal.Skeleton
import proofs.«120140_j39513699123324_1_alg».proof.Proof.Gen.KernelIdeal.Launch
import proofs.«120140_j39513699123324_1_alg».proof.Proof.Gen.KernelIdeal.Points
import proofs.«120140_j39513699123324_1_alg».proof.Proof.Gen.KernelIdeal.Frame
import proofs.«120140_j39513699123324_1_alg».proof.Proof.Gen.ReferenceIdeal
import proofs.«120140_j39513699123324_1_alg».proof.Proof.Gen.Pre_finite_inputs
import proofs.«120140_j39513699123324_1_alg».proof.Proof.Gen.ReferenceIdeal.Run
import proofs.«120140_j39513699123324_1_alg».proof.Proof.Gen.ReferenceIdeal.Read
import proofs.«120140_j39513699123324_1_alg».proof.Proof.Final
import proofs.«120140_j39513699123324_1_alg».proof.Proof.Total
import proofs.«120140_j39513699123324_1_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the batch's total loss divided by the batch size: the kernel's total is the chain over the grid
    (`Total.total_value`), the reference's the masked double sum (`RefValue.total_eq`), each the sum of the row losses
    of arguments that agree. -/
theorem algebraic : Cert.algebraic_KernelIdeal_ReferenceIdeal := by
  intro m ρ m' ρ' _ hagree
  refine ⟨fun c => Cert.KernelIdeal.Final.answer m c, Cert.KernelIdeal.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, hagree c]
  unfold Cert.ReferenceIdeal.Read.val_main_v21 Cert.KernelIdeal.Final.answer
  refine congrArg (fun z => Host.divf z (constant Cert.KernelIdeal.S_ .f32 0x48000000#32)) ?_
  funext i
  rw [Cert.ReferenceIdeal.RefValue.total_eq]
  exact (Cert.KernelIdeal.Total.total_value m c _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
